-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S100x128 : Shape := ⟨2, ![100, 128]⟩
abbrev S128x128 : Shape := ⟨2, ![128, 128]⟩
abbrev S128x13 : Shape := ⟨2, ![128, 13]⟩
abbrev S50000 : Shape := ⟨1, ![50000]⟩
abbrev S800000x2 : Shape := ⟨2, ![800000, 2]⟩
abbrev S650000 : Shape := ⟨1, ![650000]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S128x128 : S_.BroadcastsInDim S128x128 (![] : Fin 0 → Fin S128x128.rank)
  reducesTo_S128x128_S_d0_1 : S128x128.ReducesTo [0, 1] S_
  bcast_S_S128x13 : S_.BroadcastsInDim S128x13 (![] : Fin 0 → Fin S128x13.rank)
  reducesTo_S128x13_S_d0_1 : S128x13.ReducesTo [0, 1] S_

variable [Facts]

def fn_part1 {F : FTy → Type} [FloatOps F] (main_v13 : IVec S_ 1) (main_v16 : IVec S128x13 1) : IVec S_ 1 :=
  let main_c_5 : IVec S_ 1 := constantI S_ 1 1#1
  let main_v17 : IVec S_ 1 := (fun x v => Host.reduce IntOp.andi x v reducesTo_S128x13_S_d0_1 h_S_) main_v16 main_c_5
  let main_v18 : IVec S_ 1 := andi main_v13 main_v17
  main_v18

def fn {F : FTy → Type} [FloatOps F] (main_arg0 : FVec F S50000x3 .f32) (main_arg1 : FVec F S100x128 .f32) (main_arg2 : FVec F S128x128 .f32) (main_arg3 : FVec F S128x13 .f32) (main_arg4 : IVec S50000 32) (main_arg5 : IVec S800000x2 32) (main_arg6 : IVec S650000 32) (main_arg7 : IVec S50000 32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S100x128 .f32 := Host.absf main_arg1
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x13 .f32 := Host.absf main_arg3
  let main_cst_4 : FVec F S_ .f32 := constant S_ .f32 0x7F800000#32
  let main_v15 : FVec F S128x13 .f32 := broadcastInDim S128x13 ![] bcast_S_S128x13 main_cst_4
  let main_v16 : IVec S128x13 1 := cmpf .olt main_v14 main_v15
  fn_part1 (F := F) main_v13 main_v16
-- ==== Kernel.lean ====
abbrev S50000x3 : Shape := ⟨2, ![50000, 3]⟩
abbrev S100x128 : Shape := ⟨2, ![100, 128]⟩
abbrev S128x128 : Shape := ⟨2, ![128, 128]⟩
abbrev S128x13 : Shape := ⟨2, ![128, 13]⟩
abbrev S50000 : Shape := ⟨1, ![50000]⟩
abbrev S800000x2 : Shape := ⟨2, ![800000, 2]⟩
abbrev S650000 : Shape := ⟨1, ![650000]⟩
abbrev S_ : Shape := ⟨0, ![]⟩
abbrev S50000x1 : Shape := ⟨2, ![50000, 1]⟩
abbrev S50000x128 : Shape := ⟨2, ![50000, 128]⟩
abbrev S800000x1 : Shape := ⟨2, ![800000, 1]⟩
abbrev S800000 : Shape := ⟨1, ![800000]⟩
abbrev S800000x3 : Shape := ⟨2, ![800000, 3]⟩
abbrev S800000x128 : Shape := ⟨2, ![800000, 128]⟩
abbrev S800000x13x3 : Shape := ⟨3, ![800000, 13, 3]⟩
abbrev S8000x128 : Shape := ⟨2, ![8000, 128]⟩
abbrev S8000x3 : Shape := ⟨2, ![8000, 3]⟩
abbrev S8000x13x3 : Shape := ⟨3, ![8000, 13, 3]⟩
abbrev S8000x13 : Shape := ⟨2, ![8000, 13]⟩
abbrev S8000x13x1 : Shape := ⟨3, ![8000, 13, 1]⟩
abbrev S8000x1x3 : Shape := ⟨3, ![8000, 1, 3]⟩
abbrev S50000x13x3 : Shape := ⟨3, ![50000, 13, 3]⟩
abbrev S650000x1 : Shape := ⟨2, ![650000, 1]⟩
abbrev S650000x2 : Shape := ⟨2, ![650000, 2]⟩
abbrev S650000x3 : Shape := ⟨2, ![650000, 3]⟩

abbrev nBuf : Space → Nat
  | .hbm => 135
  | .vmem => 8
  | .smem => 0
  | _ => 0

abbrev hbmTy0_0 (i : Nat) : BufTy := match i % 128 with
  | 0 => ⟨S50000x3, .f32⟩
  | 1 => ⟨S100x128, .f32⟩
  | 2 => ⟨S128x128, .f32⟩
  | 3 => ⟨S128x13, .f32⟩
  | 4 => ⟨S50000, .i32⟩
  | 5 => ⟨S800000x2, .i32⟩
  | 6 => ⟨S650000, .i32⟩
  | 7 => ⟨S50000, .i32⟩
  | 8 => ⟨S_, .i32⟩
  | 9 => ⟨S50000, .i32⟩
  | 10 => ⟨S50000, .i1⟩
  | 11 => ⟨S_, .i32⟩
  | 12 => ⟨S50000, .i32⟩
  | 13 => ⟨S50000, .i32⟩
  | 14 => ⟨S50000, .i32⟩
  | 15 => ⟨S50000x1, .i32⟩
  | 16 => ⟨S50000x128, .f32⟩
  | 17 => ⟨S_, .i32⟩
  | 18 => ⟨S50000, .i32⟩
  | 19 => ⟨S50000, .i1⟩
  | 20 => ⟨S50000x1, .i1⟩
  | 21 => ⟨S50000x1, .f32⟩
  | 22 => ⟨S50000x128, .f32⟩
  | 23 => ⟨S50000x128, .f32⟩
  | 24 => ⟨S800000x1, .i32⟩
  | 25 => ⟨S800000, .i32⟩
  | 26 => ⟨S800000x1, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x3, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x3, .f32⟩
  | 46 => ⟨S800000x3, .f32⟩
  | 47 => ⟨S800000x3, .f32⟩
  | 48 => ⟨S_, .f32⟩
  | 49 => ⟨S800000, .f32⟩
  | 50 => ⟨S800000x1, .f32⟩
  | 51 => ⟨S800000x1, .f32⟩
  | 52 => ⟨S_, .f32⟩
  | 53 => ⟨S800000x1, .f32⟩
  | 54 => ⟨S800000x1, .f32⟩
  | 55 => ⟨S800000x3, .f32⟩
  | 56 => ⟨S800000x3, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S800000x128, .f32⟩
  | 76 => ⟨S800000x13x3, .f32⟩
  | 77 => ⟨S_, .f32⟩
  | 78 => ⟨S50000x13x3, .f32⟩
  | 79 => ⟨S800000x1, .i32⟩
  | 80 => ⟨S50000x13x3, .f32⟩
  | 81 => ⟨S650000, .i32⟩
  | 82 => ⟨S_, .i32⟩
  | 83 => ⟨S50000, .i32⟩
  | 84 => ⟨S650000x1, .i32⟩
  | 85 => ⟨S50000, .i32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000, .i32⟩
  | 95 => ⟨S650000, .i32⟩
  | 96 => ⟨S_, .i32⟩
  | 97 => ⟨S650000, .i32⟩
  | 98 => ⟨S650000, .i1⟩
  | 99 => ⟨S_, .i32⟩
  | 100 => ⟨S650000, .i32⟩
  | 101 => ⟨S650000, .i32⟩
  | 102 => ⟨S650000, .i32⟩
  | 103 => ⟨S_, .i32⟩
  | 104 => ⟨S650000, .i32⟩
  | 105 => ⟨S650000, .i1⟩
  | 106 => ⟨S_, .i32⟩
  | 107 => ⟨S650000, .i32⟩
  | 108 => ⟨S650000, .i32⟩
  | 109 => ⟨S650000, .i32⟩
  | 110 => ⟨S650000x1, .i32⟩
  | 111 => ⟨S650000x1, .i32⟩
  | 112 => ⟨S650000x2, .i32⟩
  | 113 => ⟨S650000x3, .f32⟩
  | 114 => ⟨S_, .i32⟩
  | 115 => ⟨S50000, .i32⟩
  | 116 => ⟨S50000, .i1⟩
  | 117 => ⟨S_, .i32⟩
  | 118 => ⟨S50000, .i32⟩
  | 119 => ⟨S50000, .i32⟩
  | 120 => ⟨S50000, .i32⟩
  | 121 => ⟨S50000x1, .i32⟩
  | 122 => ⟨S_, .f32⟩
  | 123 => ⟨S50000x3, .f32⟩
  | 124 => ⟨S650000x3, .f32⟩
  | 125 => ⟨S_, .i32⟩
  | 126 => ⟨S650000, .i32⟩
  | 127 => ⟨S650000, .i1⟩
  | _ => ⟨S50000x3, .f32⟩

abbrev hbmTy0_1 (i : Nat) : BufTy := match i % 128 with
  | 0 => ⟨S_, .i32⟩
  | 1 => ⟨S650000, .i32⟩
  | 2 => ⟨S650000, .i32⟩
  | 3 => ⟨S650000, .i32⟩
  | 4 => ⟨S650000x1, .i32⟩
  | 5 => ⟨S650000x3, .f32⟩
  | 6 => ⟨S650000x3, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S8000x3, .f32⟩
  | .local _ .vmem, ⟨3, _⟩ => ⟨S8000x3, .f32⟩
  | .local _ .vmem, ⟨4, _⟩ => ⟨S128x128, .f32⟩
  | .local _ .vmem, ⟨5, _⟩ => ⟨S128x13, .f32⟩
  | .local _ .vmem, ⟨6, _⟩ => ⟨S8000x13x3, .f32⟩
  | .local _ .vmem, ⟨7, _⟩ => ⟨S8000x13x3, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_c_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_v89 : Ref sig .tc := ⟨.hbm, 124, rfl⟩
abbrev main_c_21 : Ref sig .tc := ⟨.hbm, 125, rfl⟩
abbrev main_v90 : Ref sig .tc := ⟨.hbm, 126, rfl⟩
abbrev main_v91 : Ref sig .tc := ⟨.hbm, 127, rfl⟩
abbrev main_c_22 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x13 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x13x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x13_S128x13_0_0 : ∀ a, (![0, 0] : Fin 2 → Nat) a + S128x13.size a ≤ S128x13.size a
  h_S128x13 : 0 < S128x13.numel
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  shapeCasts_S8000x13_S8000x13x1 : S8000x13.ShapeCasts S8000x13x1
  shapeCasts_S8000x3_S8000x1x3 : S8000x3.ShapeCasts S8000x1x3
  broadcasts_S8000x13x1_S8000x13x3 : S8000x13x1.Broadcasts S8000x13x3
  broadcasts_S8000x1x3_S8000x13x3 : S8000x1x3.Broadcasts S8000x13x3
  inb_S8000x13x3_S8000x13x3_0_0_0 : ∀ a, (![0, 0, 0] : Fin 3 → Nat) a + S8000x13x3.size a ≤ S8000x13x3.size a
  h_S8000x13x3 : 0 < S8000x13x3.numel
  bcast_S_S50000x13x3 : S_.BroadcastsInDim S50000x13x3 (![] : Fin 0 → Fin S50000x13x3.rank)
  bcast_S650000_S650000x1_0 : S650000.BroadcastsInDim S650000x1 (![0] : Fin 1 → Fin S650000x1.rank)
  bcast_S_S650000 : S_.BroadcastsInDim S650000 (![] : Fin 0 → Fin S650000.rank)
  concatenates_S650000x1_S650000x1_S650000x2_d1 : Shape.Concatenates [S650000x1, S650000x1] S650000x2 1
  bcast_S_S50000x3 : S_.BroadcastsInDim S50000x3 (![] : Fin 0 → Fin S50000x3.rank)
  gather_S100x128_S50000x1_S50000x128_1_0_n_n_0_1_1128_wf : GatherDims.WF S100x128 S50000x1 S50000x128 [1] [0] [] [0] [] 1 ![1, 128]
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  dot_S8000x128_S128x13_S8000x13_1_0_0_1_n_n_wf : DotDims.WF S8000x128 S128x13 S8000x13 [1] [0] [0] [1] [] []
  scatter_S50000x13x3_S800000x1_S800000x13x3_12_0_0_1_wf : ScatterDims.WF S50000x13x3 S800000x1 S800000x13x3 [1, 2] [0] [0] 1
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x13x3_S650000x2_S650000x3_1_01_n_n_01_1_113_wf : GatherDims.WF S50000x13x3 S650000x2 S650000x3 [1] [0, 1] [] [0, 1] [] 1 ![1, 1, 3]
  scatter_S650000x3_S50000x1_S50000x3_1_0_0_1_wf : ScatterDims.WF S650000x3 S50000x1 S50000x3 [1] [0] [0] 1
  gather_S50000x3_S650000x1_S650000x3_1_0_n_n_0_1_13_wf : GatherDims.WF S50000x3 S650000x1 S650000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x3.size a ≤ S800000x3.size a
  hwx0_1 : ∀ i : grid0.Coords, EltTy.bits .f32 = 32 ∨ (Rect.block (s := S800000x3) S8000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x13.size a ≤ S128x13.size a
  hwx0_3 : ∀ i : grid0.Coords, EltTy.bits .f32 = 32 ∨ (Rect.block (s := S128x13) S128x13.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x13x3.size a ≤ S800000x13x3.size a
  hwx0_4 : ∀ i : grid0.Coords, EltTy.bits .f32 = 32 ∨ (Rect.block (s := S800000x13x3) S8000x13x3.size (cc0_transform_4 i) (hinb0_4 i)).WholeWords (EltTy.packing .f32)

variable [Facts₀]

def gather_S100x128_S50000x1_S50000x128_1_0_n_n_0_1_1128 : GatherDims S100x128 S50000x1 S50000x128 where
  offsetDims := [1]
  collapsedSliceDims := [0]
  operandBatchingDims := []
  startIndicesBatchingDims := []
  startIndexMap := [0]
  indexVectorDim := 1
  sliceSizes := ![1, 128]
  wf := gather_S100x128_S50000x1_S50000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x13_S8000x13_1_0_0_1_n_n : DotDims S8000x128 S128x13 S8000x13 where
  lhsContracting := [1]
  rhsContracting := [0]
  lhsNonContracting := [0]
  rhsNonContracting := [1]
  lhsBatch := []
  rhsBatch := []
  wf := dot_S8000x128_S128x13_S8000x13_1_0_0_1_n_n_wf
def scatter_S50000x13x3_S800000x1_S800000x13x3_12_0_0_1 : ScatterDims S50000x13x3 S800000x1 S800000x13x3 where
  updateWindowDims := [1, 2]
  insertedWindowDims := [0]
  scatterDimsToOperandDims := [0]
  indexVectorDim := 1
  wf := scatter_S50000x13x3_S800000x1_S800000x13x3_12_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x13x3_S650000x2_S650000x3_1_01_n_n_01_1_113 : GatherDims S50000x13x3 S650000x2 S650000x3 where
  offsetDims := [1]
  collapsedSliceDims := [0, 1]
  operandBatchingDims := []
  startIndicesBatchingDims := []
  startIndexMap := [0, 1]
  indexVectorDim := 1
  sliceSizes := ![1, 1, 3]
  wf := gather_S50000x13x3_S650000x2_S650000x3_1_01_n_n_01_1_113_wf
def scatter_S650000x3_S50000x1_S50000x3_1_0_0_1 : ScatterDims S650000x3 S50000x1 S50000x3 where
  updateWindowDims := [1]
  insertedWindowDims := [0]
  scatterDimsToOperandDims := [0]
  indexVectorDim := 1
  wf := scatter_S650000x3_S50000x1_S50000x3_1_0_0_1_wf
def gather_S50000x3_S650000x1_S650000x3_1_0_n_n_0_1_13 : GatherDims S50000x3 S650000x1 S650000x3 where
  offsetDims := [1]
  collapsedSliceDims := [0]
  operandBatchingDims := []
  startIndicesBatchingDims := []
  startIndexMap := [0]
  indexVectorDim := 1
  sliceSizes := ![1, 3]
  wf := gather_S50000x3_S650000x1_S650000x3_1_0_n_n_0_1_13_wf

abbrev win0_0 : Pipeline.Window sig grid0 :=
  Pipeline.Window.ofSpec (Memref.whole main_v51) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S8000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x13.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v52) S8000x13x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x3 : Shape := ⟨2, ![50000, 3]⟩
abbrev S100x128 : Shape := ⟨2, ![100, 128]⟩
abbrev S128x128 : Shape := ⟨2, ![128, 128]⟩
abbrev S128x13 : Shape := ⟨2, ![128, 13]⟩
abbrev S50000 : Shape := ⟨1, ![50000]⟩
abbrev S800000x2 : Shape := ⟨2, ![800000, 2]⟩
abbrev S650000 : Shape := ⟨1, ![650000]⟩
abbrev S_ : Shape := ⟨0, ![]⟩
abbrev S50000x1 : Shape := ⟨2, ![50000, 1]⟩
abbrev S50000x128 : Shape := ⟨2, ![50000, 128]⟩
abbrev S800000x1 : Shape := ⟨2, ![800000, 1]⟩
abbrev S800000 : Shape := ⟨1, ![800000]⟩
abbrev S800000x3 : Shape := ⟨2, ![800000, 3]⟩
abbrev S800000x128 : Shape := ⟨2, ![800000, 128]⟩
abbrev S800000x13 : Shape := ⟨2, ![800000, 13]⟩
abbrev S800000x13x1 : Shape := ⟨3, ![800000, 13, 1]⟩
abbrev S800000x1x3 : Shape := ⟨3, ![800000, 1, 3]⟩
abbrev S800000x13x3 : Shape := ⟨3, ![800000, 13, 3]⟩
abbrev S50000x13x3 : Shape := ⟨3, ![50000, 13, 3]⟩
abbrev S650000x1 : Shape := ⟨2, ![650000, 1]⟩
abbrev S650000x2 : Shape := ⟨2, ![650000, 2]⟩
abbrev S650000x3 : Shape := ⟨2, ![650000, 3]⟩

abbrev nBuf : Space → Nat
  | .hbm => 150
  | .vmem => 0
  | .smem => 0
  | _ => 0

abbrev hbmTy0_0 (i : Nat) : BufTy := match i % 128 with
  | 0 => ⟨S50000x3, .f32⟩
  | 1 => ⟨S100x128, .f32⟩
  | 2 => ⟨S128x128, .f32⟩
  | 3 => ⟨S128x13, .f32⟩
  | 4 => ⟨S50000, .i32⟩
  | 5 => ⟨S800000x2, .i32⟩
  | 6 => ⟨S650000, .i32⟩
  | 7 => ⟨S50000, .i32⟩
  | 8 => ⟨S_, .i32⟩
  | 9 => ⟨S50000, .i32⟩
  | 10 => ⟨S50000, .i1⟩
  | 11 => ⟨S_, .i32⟩
  | 12 => ⟨S50000, .i32⟩
  | 13 => ⟨S50000, .i32⟩
  | 14 => ⟨S50000, .i32⟩
  | 15 => ⟨S50000x1, .i32⟩
  | 16 => ⟨S50000x128, .f32⟩
  | 17 => ⟨S_, .i32⟩
  | 18 => ⟨S50000, .i32⟩
  | 19 => ⟨S50000, .i1⟩
  | 20 => ⟨S50000x1, .i1⟩
  | 21 => ⟨S50000x1, .f32⟩
  | 22 => ⟨S50000x128, .f32⟩
  | 23 => ⟨S50000x128, .f32⟩
  | 24 => ⟨S800000x1, .i32⟩
  | 25 => ⟨S800000, .i32⟩
  | 26 => ⟨S800000x1, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x3, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x3, .f32⟩
  | 46 => ⟨S800000x3, .f32⟩
  | 47 => ⟨S800000x3, .f32⟩
  | 48 => ⟨S_, .f32⟩
  | 49 => ⟨S800000, .f32⟩
  | 50 => ⟨S800000x1, .f32⟩
  | 51 => ⟨S800000x1, .f32⟩
  | 52 => ⟨S_, .f32⟩
  | 53 => ⟨S800000x1, .f32⟩
  | 54 => ⟨S800000x1, .f32⟩
  | 55 => ⟨S800000x3, .f32⟩
  | 56 => ⟨S800000x3, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S800000x128, .f32⟩
  | 76 => ⟨S800000x128, .f32⟩
  | 77 => ⟨S800000x128, .f32⟩
  | 78 => ⟨S800000x128, .f32⟩
  | 79 => ⟨S_, .f32⟩
  | 80 => ⟨S800000x128, .f32⟩
  | 81 => ⟨S800000x128, .f32⟩
  | 82 => ⟨S_, .f32⟩
  | 83 => ⟨S800000x128, .f32⟩
  | 84 => ⟨S800000x128, .f32⟩
  | 85 => ⟨S800000x128, .f32⟩
  | 86 => ⟨S800000x13, .f32⟩
  | 87 => ⟨S800000x13x1, .f32⟩
  | 88 => ⟨S800000x1x3, .f32⟩
  | 89 => ⟨S800000x13x3, .f32⟩
  | 90 => ⟨S800000x13x3, .f32⟩
  | 91 => ⟨S800000x13x3, .f32⟩
  | 92 => ⟨S_, .f32⟩
  | 93 => ⟨S50000x13x3, .f32⟩
  | 94 => ⟨S800000x1, .i32⟩
  | 95 => ⟨S50000x13x3, .f32⟩
  | 96 => ⟨S650000, .i32⟩
  | 97 => ⟨S_, .i32⟩
  | 98 => ⟨S50000, .i32⟩
  | 99 => ⟨S650000x1, .i32⟩
  | 100 => ⟨S50000, .i32⟩
  | 101 => ⟨S_, .i32⟩
  | 102 => ⟨S650000, .i32⟩
  | 103 => ⟨S650000, .i1⟩
  | 104 => ⟨S_, .i32⟩
  | 105 => ⟨S650000, .i32⟩
  | 106 => ⟨S650000, .i32⟩
  | 107 => ⟨S650000, .i32⟩
  | 108 => ⟨S650000x1, .i32⟩
  | 109 => ⟨S650000, .i32⟩
  | 110 => ⟨S650000, .i32⟩
  | 111 => ⟨S_, .i32⟩
  | 112 => ⟨S650000, .i32⟩
  | 113 => ⟨S650000, .i1⟩
  | 114 => ⟨S_, .i32⟩
  | 115 => ⟨S650000, .i32⟩
  | 116 => ⟨S650000, .i32⟩
  | 117 => ⟨S650000, .i32⟩
  | 118 => ⟨S_, .i32⟩
  | 119 => ⟨S650000, .i32⟩
  | 120 => ⟨S650000, .i1⟩
  | 121 => ⟨S_, .i32⟩
  | 122 => ⟨S650000, .i32⟩
  | 123 => ⟨S650000, .i32⟩
  | 124 => ⟨S650000, .i32⟩
  | 125 => ⟨S650000x1, .i32⟩
  | 126 => ⟨S650000x1, .i32⟩
  | 127 => ⟨S650000x2, .i32⟩
  | _ => ⟨S50000x3, .f32⟩

abbrev hbmTy0_1 (i : Nat) : BufTy := match i % 128 with
  | 0 => ⟨S650000x3, .f32⟩
  | 1 => ⟨S_, .i32⟩
  | 2 => ⟨S50000, .i32⟩
  | 3 => ⟨S50000, .i1⟩
  | 4 => ⟨S_, .i32⟩
  | 5 => ⟨S50000, .i32⟩
  | 6 => ⟨S50000, .i32⟩
  | 7 => ⟨S50000, .i32⟩
  | 8 => ⟨S50000x1, .i32⟩
  | 9 => ⟨S_, .f32⟩
  | 10 => ⟨S50000x3, .f32⟩
  | 11 => ⟨S650000x3, .f32⟩
  | 12 => ⟨S_, .i32⟩
  | 13 => ⟨S650000, .i32⟩
  | 14 => ⟨S650000, .i1⟩
  | 15 => ⟨S_, .i32⟩
  | 16 => ⟨S650000, .i32⟩
  | 17 => ⟨S650000, .i32⟩
  | 18 => ⟨S650000, .i32⟩
  | 19 => ⟨S650000x1, .i32⟩
  | 20 => ⟨S650000x3, .f32⟩
  | 21 => ⟨S650000x3, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_12 : Ref sig .tc := ⟨.hbm, 101, rfl⟩
abbrev main_v67 : Ref sig .tc := ⟨.hbm, 102, rfl⟩
abbrev main_v68 : Ref sig .tc := ⟨.hbm, 103, rfl⟩
abbrev main_c_13 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_14 : Ref sig .tc := ⟨.hbm, 111, rfl⟩
abbrev main_v75 : Ref sig .tc := ⟨.hbm, 112, rfl⟩
abbrev main_v76 : Ref sig .tc := ⟨.hbm, 113, rfl⟩
abbrev main_c_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_16 : Ref sig .tc := ⟨.hbm, 118, rfl⟩
abbrev main_v80 : Ref sig .tc := ⟨.hbm, 119, rfl⟩
abbrev main_v81 : Ref sig .tc := ⟨.hbm, 120, rfl⟩
abbrev main_c_17 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_c_18 : Ref sig .tc := ⟨.hbm, 129, rfl⟩
abbrev main_v89 : Ref sig .tc := ⟨.hbm, 130, rfl⟩
abbrev main_v90 : Ref sig .tc := ⟨.hbm, 131, rfl⟩
abbrev main_c_19 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_20 : Ref sig .tc := ⟨.hbm, 137, rfl⟩
abbrev main_v95 : Ref sig .tc := ⟨.hbm, 138, rfl⟩
abbrev main_v96 : Ref sig .tc := ⟨.hbm, 139, rfl⟩
abbrev main_c_21 : Ref sig .tc := ⟨.hbm, 140, rfl⟩
abbrev main_v97 : Ref sig .tc := ⟨.hbm, 141, rfl⟩
abbrev main_v98 : Ref sig .tc := ⟨.hbm, 142, rfl⟩
abbrev main_c_22 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  bcast_S_S800000x128 : S_.BroadcastsInDim S800000x128 (![] : Fin 0 → Fin S800000x128.rank)
  bcast_S800000x13_S800000x13x1_0_1 : S800000x13.BroadcastsInDim S800000x13x1 (![0, 1] : Fin 2 → Fin S800000x13x1.rank)
  bcast_S800000x3_S800000x1x3_0_2 : S800000x3.BroadcastsInDim S800000x1x3 (![0, 2] : Fin 2 → Fin S800000x1x3.rank)
  bcast_S800000x13x1_S800000x13x3_0_1_2 : S800000x13x1.BroadcastsInDim S800000x13x3 (![0, 1, 2] : Fin 3 → Fin S800000x13x3.rank)
  bcast_S800000x1x3_S800000x13x3_0_1_2 : S800000x1x3.BroadcastsInDim S800000x13x3 (![0, 1, 2] : Fin 3 → Fin S800000x13x3.rank)
  bcast_S_S50000x13x3 : S_.BroadcastsInDim S50000x13x3 (![] : Fin 0 → Fin S50000x13x3.rank)
  bcast_S650000_S650000x1_0 : S650000.BroadcastsInDim S650000x1 (![0] : Fin 1 → Fin S650000x1.rank)
  bcast_S_S650000 : S_.BroadcastsInDim S650000 (![] : Fin 0 → Fin S650000.rank)
  concatenates_S650000x1_S650000x1_S650000x2_d1 : Shape.Concatenates [S650000x1, S650000x1] S650000x2 1
  bcast_S_S50000x3 : S_.BroadcastsInDim S50000x3 (![] : Fin 0 → Fin S50000x3.rank)
  gather_S100x128_S50000x1_S50000x128_1_0_n_n_0_1_1128_wf : GatherDims.WF S100x128 S50000x1 S50000x128 [1] [0] [] [0] [] 1 ![1, 128]
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  dot_S800000x128_S128x13_S800000x13_1_0_0_1_n_n_wf : DotDims.WF S800000x128 S128x13 S800000x13 [1] [0] [0] [1] [] []
  scatter_S50000x13x3_S800000x1_S800000x13x3_12_0_0_1_wf : ScatterDims.WF S50000x13x3 S800000x1 S800000x13x3 [1, 2] [0] [0] 1
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x13x3_S650000x2_S650000x3_1_01_n_n_01_1_113_wf : GatherDims.WF S50000x13x3 S650000x2 S650000x3 [1] [0, 1] [] [0, 1] [] 1 ![1, 1, 3]
  scatter_S650000x3_S50000x1_S50000x3_1_0_0_1_wf : ScatterDims.WF S650000x3 S50000x1 S50000x3 [1] [0] [0] 1
  gather_S50000x3_S650000x1_S650000x3_1_0_n_n_0_1_13_wf : GatherDims.WF S50000x3 S650000x1 S650000x3 [1] [0] [] [0] [] 1 ![1, 3]

variable [Facts₀]

def gather_S100x128_S50000x1_S50000x128_1_0_n_n_0_1_1128 : GatherDims S100x128 S50000x1 S50000x128 where
  offsetDims := [1]
  collapsedSliceDims := [0]
  operandBatchingDims := []
  startIndicesBatchingDims := []
  startIndexMap := [0]
  indexVectorDim := 1
  sliceSizes := ![1, 128]
  wf := gather_S100x128_S50000x1_S50000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x13_S800000x13_1_0_0_1_n_n : DotDims S800000x128 S128x13 S800000x13 where
  lhsContracting := [1]
  rhsContracting := [0]
  lhsNonContracting := [0]
  rhsNonContracting := [1]
  lhsBatch := []
  rhsBatch := []
  wf := dot_S800000x128_S128x13_S800000x13_1_0_0_1_n_n_wf
def scatter_S50000x13x3_S800000x1_S800000x13x3_12_0_0_1 : ScatterDims S50000x13x3 S800000x1 S800000x13x3 where
  updateWindowDims := [1, 2]
  insertedWindowDims := [0]
  scatterDimsToOperandDims := [0]
  indexVectorDim := 1
  wf := scatter_S50000x13x3_S800000x1_S800000x13x3_12_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x13x3_S650000x2_S650000x3_1_01_n_n_01_1_113 : GatherDims S50000x13x3 S650000x2 S650000x3 where
  offsetDims := [1]
  collapsedSliceDims := [0, 1]
  operandBatchingDims := []
  startIndicesBatchingDims := []
  startIndexMap := [0, 1]
  indexVectorDim := 1
  sliceSizes := ![1, 1, 3]
  wf := gather_S50000x13x3_S650000x2_S650000x3_1_01_n_n_01_1_113_wf
def scatter_S650000x3_S50000x1_S50000x3_1_0_0_1 : ScatterDims S650000x3 S50000x1 S50000x3 where
  updateWindowDims := [1]
  insertedWindowDims := [0]
  scatterDimsToOperandDims := [0]
  indexVectorDim := 1
  wf := scatter_S650000x3_S50000x1_S50000x3_1_0_0_1_wf
def gather_S50000x3_S650000x1_S650000x3_1_0_n_n_0_1_13 : GatherDims S50000x3 S650000x1 S650000x3 where
  offsetDims := [1]
  collapsedSliceDims := [0]
  operandBatchingDims := []
  startIndicesBatchingDims := []
  startIndexMap := [0]
  indexVectorDim := 1
  sliceSizes := ![1, 3]
  wf := gather_S50000x3_S650000x1_S650000x3_1_0_n_n_0_1_13_wf

class Facts : Prop extends Facts₀ where

variable [Facts]
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.EdgeMessage.lean ====
/-
  The arithmetic of one edge message, on the extended reals.

  For an edge with summed endpoint features `s : Fin 128 → EReal`, the message is `m k = ∑ j, s j · A (j, k)`, it is
  gated by `x ↦ x · (1 / (1 + e^(-x)))`, and channel `c` gets the weight `∑ k, gate (m k) · B (k, c)`. The
  contribution of the edge to channel `c` and coordinate `d` is that weight times the edge's unit vector at `d`.

  The gate is met in two spellings: with the exponent written `0 - x` and the quotient as the vector unit's, and
  with the exponent written `-x`. On the extended reals `0 - x = -x` for every `x`, the infinities included, so
  the two spellings are one function; nothing here needs a finite argument.
-/
import Idealize.ShloMosaic.PureOps.Ideal
import Idealize.ShloMosaic.PureOps.Ideal.Laws
import Idealize.ShloMosaic.Lib.ValueIdx

noncomputable section

open scoped BigOperators

namespace Cert.EdgeMessage

open Idealize.ShloMosaic Idealize.ShloMosaic.ValueIdx

/-- The f32 word of `1.0` at the ideal instance. Both programs carry this same word, so it is never evaluated. -/
abbrev one : EReal := Ideal.ofBits .f32 0x3F800000#32

/-- The gate `x · (1 / (1 + e^(-x)))`. -/
def gate (x : EReal) : EReal := x * Ideal.div one (one + Ideal.exp (-x))

/-- The gate with its exponent spelt `0 - x`, the zero being the f32 zero word. -/
theorem gate_of_zero_sub (x : EReal) :
    x * Ideal.div one (one + Ideal.exp (Ideal.ofBits .f32 0x00000000#32 - x)) = gate x := by
  rw [Ideal.ofBits_zero_f32, zero_sub]
  rfl

/-- The weight of channel `c` for an edge whose summed endpoint features are `s`. -/
def chanWeight (s : Fin 128 → EReal) (A : (⟨2, ![128, 128]⟩ : Shape).Idx → EReal)
    (B : (⟨2, ![128, 13]⟩ : Shape).Idx → EReal) (c : Fin 13) : EReal :=
  ∑ k : Fin 128, gate (∑ j : Fin 128, s j * A (ix2 j k)) * B (ix2 k c)

/-- The edge contributions of `n` edges: entry `(e, c, d)` is the weight of channel `c` for edge `e` times the
    edge's unit vector at `d`. -/
def contrib {n : Nat} (S : (⟨2, ![n, 128]⟩ : Shape).Idx → EReal) (U : (⟨2, ![n, 3]⟩ : Shape).Idx → EReal)
    (A : (⟨2, ![128, 128]⟩ : Shape).Idx → EReal) (B : (⟨2, ![128, 13]⟩ : Shape).Idx → EReal) :
    (⟨3, ![n, 13, 3]⟩ : Shape).Idx → EReal :=
  fun i => chanWeight (fun j => S (ix2 (i 0) j)) A B (i 1) * U (ix2 (i 0) (i 2))

theorem contrib_apply {n : Nat} (S : (⟨2, ![n, 128]⟩ : Shape).Idx → EReal) (U : (⟨2, ![n, 3]⟩ : Shape).Idx → EReal)
    (A : (⟨2, ![128, 128]⟩ : Shape).Idx → EReal) (B : (⟨2, ![128, 13]⟩ : Shape).Idx → EReal)
    (e : Fin n) (c : Fin 13) (d : Fin 3) :
    contrib S U A B (ix3 e c d) = chanWeight (fun j => S (ix2 e j)) A B c * U (ix2 e d) := rfl

end Cert.EdgeMessage

end
-- ==== Proof.RefEdges.lean ====
/-
  The reference's edge contributions, read at one element.

  The reference multiplies the summed endpoint features of all 800000 edges by the message weights, gates the result
  with `x · (1 / (1 + exp (-x)))`, multiplies by the channel weights, and forms the outer product with the unit
  vectors by two broadcasts. Read at `(e, c, d)`: the two host products are the sums over the contracted axis, the
  broadcasts pick `(e, c)` of the channel weights and `(e, d)` of the unit vectors, and the gate is the one of
  the kernel. So the stage is the edge-contribution function of the reference's own summed features and unit vectors.
-/
import proofs.«427524_j87179246174229_1_alg».proof.Proof.RefRead
import proofs.«427524_j87179246174229_1_alg».proof.Proof.LibDot
import proofs.«427524_j87179246174229_1_alg».proof.Proof.EdgeMessage
import Idealize.ShloMosaic.Lib.ValueIdx

noncomputable section

open scoped BigOperators

namespace Cert.ReferenceIdeal.Edges

open Idealize.ShloMosaic Idealize.ShloMosaic.ValueIdx Cert.ReferenceIdeal Cert.ReferenceIdeal.ReadP Cert.EdgeMessage

variable (x0 : (⟨S50000x3, .f32⟩ : BufTy).Contents (Elt Ideal)) (x1 : (⟨S100x128, .f32⟩ : BufTy).Contents (Elt Ideal))
  (x2 : (⟨S128x128, .f32⟩ : BufTy).Contents (Elt Ideal)) (x3 : (⟨S128x13, .f32⟩ : BufTy).Contents (Elt Ideal))
  (x4 : (⟨S50000, .i32⟩ : BufTy).Contents (Elt Ideal)) (x5 : (⟨S800000x2, .i32⟩ : BufTy).Contents (Elt Ideal))

/-- The message of edge `e` at feature `k`: the first host product as a sum over the contracted axis. -/
theorem message_apply (e : Fin 800000) (k : Fin 128) :
    val_main_v52 (F := Ideal) x1 x2 x4 x5 (ix2 e k)
      = ∑ j : Fin 128, val_main_v51 (F := Ideal) x1 x4 x5 (ix2 e j) * x2 (ix2 j k) := by
  unfold val_main_v52
  exact LibDot.dotGeneral_apply dot_S800000x128_S128x128_S800000x128_1_0_0_1_n_n rfl rfl rfl rfl rfl rfl none _ _ e k

/-- The gated message of edge `e` at feature `k`. -/
theorem gated_apply (e : Fin 800000) (k : Fin 128) :
    val_main_v53 (F := Ideal) x1 x2 x4 x5 (ix2 e k)
      = gate (∑ j : Fin 128, val_main_v51 (F := Ideal) x1 x4 x5 (ix2 e j) * x2 (ix2 j k)) := by
  rw [val_main_v53_apply, val_main_call1_v5_apply, val_main_call1_v4_apply, val_main_call1_cst_0_apply,
    val_main_call1_v3_apply, val_main_call1_v2_apply, val_main_call1_cst_apply, val_main_call1_v1_apply,
    val_main_call1_v0_apply, message_apply]
  rfl

/-- The reference's contribution stage is the edge-contribution function of its summed features and unit vectors. -/
theorem contrib_stage :
    val_main_v59 (F := Ideal) x0 x1 x2 x3 x4 x5
      = contrib (val_main_v51 (F := Ideal) x1 x4 x5) (val_main_v36 (F := Ideal) x0 x5) x2 x3 := by
  funext i
  obtain ⟨e, c, d, rfl⟩ : ∃ (e : Fin 800000) (c : Fin 13) (d : Fin 3), i = ix3 e c d := ⟨i 0, i 1, i 2, eq_ix3 i⟩
  rw [contrib_apply, val_main_v59_apply, val_main_v57_apply, val_main_v55_apply, val_main_v58_apply, val_main_v56_apply]
  have i1 : idx_main_v55 (idx_main_v57 (ix3 e c d)) = ix2 e c :=
    funext fun a => Fin.ext (by match a with | ⟨0, _⟩ => rfl | ⟨1, _⟩ => rfl)
  have i2 : idx_main_v56 (idx_main_v58 (ix3 e c d)) = ix2 e d :=
    funext fun a => Fin.ext (by match a with | ⟨0, _⟩ => rfl | ⟨1, _⟩ => rfl)
  rw [i1, i2]
  refine congrArg (· * val_main_v36 (F := Ideal) x0 x5 (ix2 e d)) ?_
  unfold val_main_v54 chanWeight
  rw [LibDot.dotGeneral_apply dot_S800000x128_S128x13_S800000x13_1_0_0_1_n_n rfl rfl rfl rfl rfl rfl]
  refine Finset.sum_congr rfl fun k _ => ?_
  rw [gated_apply]

end Cert.ReferenceIdeal.Edges

end
-- ==== Proof.RefDecode.lean ====
/-
  The decode after the edge stage, as one function of the edge contributions.

  After the edge contributions both programs do the same host work: a segment sum of the contributions over the
  edges' source beads into `[50000, 13, 3]`, a gather of one `(bead, channel)` row per atom, a scatter that sets
  the rows of the listed atoms to zero, and the addition of each atom's bead position. Only four of these stages
  depend on the contributions; the index arrays they use are functions of the integer arguments alone. Naming the
  whole as one function `decode` of the contributions lets the two programs be compared by comparing what goes in.
-/
import proofs.«427524_j87179246174229_1_alg».proof.Proof.RefRead
import proofs.«427524_j87179246174229_1_alg».proof.Proof.RefEdges

noncomputable section

namespace Cert.ReferenceIdeal.Decode

open Idealize.ShloMosaic Cert.ReferenceIdeal Cert.ReferenceIdeal.ReadP Cert.EdgeMessage

variable {F : FTy → Type} [FloatOps F]

/-- The host work after the edge stage: segment sum over source beads, per-atom gather, zeroing of the listed
    atoms, addition of the bead positions. -/
def decode (edges : (⟨S800000x13x3, .f32⟩ : BufTy).Contents (Elt F)) (x0 : (⟨S50000x3, .f32⟩ : BufTy).Contents (Elt F))
    (x5 : (⟨S800000x2, .i32⟩ : BufTy).Contents (Elt F)) (x6 : (⟨S650000, .i32⟩ : BufTy).Contents (Elt F))
    (x7 : (⟨S50000, .i32⟩ : BufTy).Contents (Elt F)) : (⟨S650000x3, .f32⟩ : BufTy).Contents (Elt F) :=
  addf
    (Host.scatter scatter_S650000x3_S50000x1_S50000x3_1_0_0_1 (fun _ b => b)
      (Host.gather gather_S50000x13x3_S650000x2_S650000x3_1_01_n_n_01_1_113
        (Host.scatterAdd scatter_S50000x13x3_S800000x1_S800000x13x3_12_0_0_1 (val_main_v60 (F := F))
          (val_main_v61 (F := F) x5) edges)
        (val_main_v87 (F := F) x6))
      (val_main_v94 (F := F) x7) (val_main_v95 (F := F)))
    (val_main_v103 (F := F) x0 x6)

/-- The reference's result is the decode of its contribution stage. -/
theorem result_eq (x0 : (⟨S50000x3, .f32⟩ : BufTy).Contents (Elt F)) (x1 : (⟨S100x128, .f32⟩ : BufTy).Contents (Elt F))
    (x2 : (⟨S128x128, .f32⟩ : BufTy).Contents (Elt F)) (x3 : (⟨S128x13, .f32⟩ : BufTy).Contents (Elt F))
    (x4 : (⟨S50000, .i32⟩ : BufTy).Contents (Elt F)) (x5 : (⟨S800000x2, .i32⟩ : BufTy).Contents (Elt F))
    (x6 : (⟨S650000, .i32⟩ : BufTy).Contents (Elt F)) (x7 : (⟨S50000, .i32⟩ : BufTy).Contents (Elt F)) :
    val_main_v104 (F := F) x0 x1 x2 x3 x4 x5 x6 x7 = decode (val_main_v59 (F := F) x0 x1 x2 x3 x4 x5) x0 x5 x6 x7 := by
  unfold val_main_v104 val_main_v96 val_main_v88 val_main_v62 decode
  rfl

/-- At the ideal instance: the reference's result is the decode of the edge contributions of its summed endpoint
    features and unit vectors. -/
theorem result_eq_edges (x0 : (⟨S50000x3, .f32⟩ : BufTy).Contents (Elt Ideal)) (x1 : (⟨S100x128, .f32⟩ : BufTy).Contents (Elt Ideal))
    (x2 : (⟨S128x128, .f32⟩ : BufTy).Contents (Elt Ideal)) (x3 : (⟨S128x13, .f32⟩ : BufTy).Contents (Elt Ideal))
    (x4 : (⟨S50000, .i32⟩ : BufTy).Contents (Elt Ideal)) (x5 : (⟨S800000x2, .i32⟩ : BufTy).Contents (Elt Ideal))
    (x6 : (⟨S650000, .i32⟩ : BufTy).Contents (Elt Ideal)) (x7 : (⟨S50000, .i32⟩ : BufTy).Contents (Elt Ideal)) :
    val_main_v104 (F := Ideal) x0 x1 x2 x3 x4 x5 x6 x7
      = decode (F := Ideal) (contrib (val_main_v51 (F := Ideal) x1 x4 x5) (val_main_v36 (F := Ideal) x0 x5) x2 x3) x0 x5 x6 x7 := by
  rw [result_eq, Edges.contrib_stage]

end Cert.ReferenceIdeal.Decode

end
-- ==== Proof.LibOuter.lean ====
/-
  The two keepdims reads of an outer product `w[:, :, None] * u[:, None, :]`.

  An `[n, a]` array cast to `[n, a, 1]` and then broadcast to `[n, a, b]` reads at `(e, c, d)` the operand at
  `(e, c)`; an `[n, b]` array cast to `[n, 1, b]` and then broadcast to `[n, a, b]` reads at `(e, c, d)` the
  operand at `(e, d)`. Each is the cast at its row-major position followed by the broadcast, which repeats the unit
  axis and leaves the other coordinates alone.
-/
import Idealize.ShloMosaic.Lib.Pipeline.Value
import Idealize.ShloMosaic.Lib.ValueIdx

noncomputable section

namespace Cert.LibOuter

open Idealize.ShloMosaic Idealize.ShloMosaic.ValueIdx

variable {α : Type}

/-- An `[n, a]` array cast to `[n, a, 1]` reads at `(e, c, u)` the operand at `(e, c)`. -/
theorem shapeCast_na_na1_apply {n a : ℕ} (x : (⟨2, ![n, a]⟩ : Shape).Idx → α)
    (h : (⟨2, ![n, a]⟩ : Shape).ShapeCasts ⟨3, ![n, a, 1]⟩) (e : Fin n) (c : Fin a) (u : Fin 1) :
    shapeCast ⟨3, ![n, a, 1]⟩ x h (ix3 e c u) = x (ix2 e c) :=
  shapeCast_apply x h _ _ (by
    have hu : u.val = 0 := by omega
    rw [Shape.rowMajor_val_three, Shape.rowMajor_val_two]
    show e.val * a + c.val = (e.val * a + c.val) * 1 + u.val
    rw [hu, Nat.mul_one, Nat.add_zero])

/-- An `[n, b]` array cast to `[n, 1, b]` reads at `(e, u, d)` the operand at `(e, d)`. -/
theorem shapeCast_nb_n1b_apply {n b : ℕ} (x : (⟨2, ![n, b]⟩ : Shape).Idx → α)
    (h : (⟨2, ![n, b]⟩ : Shape).ShapeCasts ⟨3, ![n, 1, b]⟩) (e : Fin n) (u : Fin 1) (d : Fin b) :
    shapeCast ⟨3, ![n, 1, b]⟩ x h (ix3 e u d) = x (ix2 e d) :=
  shapeCast_apply x h _ _ (by
    have hu : u.val = 0 := by omega
    rw [Shape.rowMajor_val_three, Shape.rowMajor_val_two]
    show e.val * b + d.val = (e.val * 1 + u.val) * b + d.val
    rw [hu, Nat.mul_one, Nat.add_zero])

/-- An `[n, a, 1]` array broadcast to `[n, a, b]` reads at `(e, c, d)` the operand at `(e, c, 0)`. -/
theorem broadcastTo_na1_nab_apply {n a b : ℕ} (v : (⟨3, ![n, a, 1]⟩ : Shape).Idx → α)
    (h : (⟨3, ![n, a, 1]⟩ : Shape).Broadcasts ⟨3, ![n, a, b]⟩) (e : Fin n) (c : Fin a) (d : Fin b) :
    broadcastTo ⟨3, ![n, a, b]⟩ v h (ix3 e c d) = v (ix3 e c (0 : Fin 1)) := by
  refine broadcastTo_apply v h (ix3 e c d) (ix3 e c (0 : Fin 1)) fun ax => ?_
  match ax with
  | ⟨0, _⟩ =>
    show e.val = if n = 1 then 0 else e.val
    split
    · have := e.isLt; omega
    · rfl
  | ⟨1, _⟩ =>
    show c.val = if a = 1 then 0 else c.val
    split
    · have := c.isLt; omega
    · rfl
  | ⟨2, _⟩ => rfl

/-- An `[n, 1, b]` array broadcast to `[n, a, b]` reads at `(e, c, d)` the operand at `(e, 0, d)`. -/
theorem broadcastTo_n1b_nab_apply {n a b : ℕ} (v : (⟨3, ![n, 1, b]⟩ : Shape).Idx → α)
    (h : (⟨3, ![n, 1, b]⟩ : Shape).Broadcasts ⟨3, ![n, a, b]⟩) (e : Fin n) (c : Fin a) (d : Fin b) :
    broadcastTo ⟨3, ![n, a, b]⟩ v h (ix3 e c d) = v (ix3 e (0 : Fin 1) d) := by
  refine broadcastTo_apply v h (ix3 e c d) (ix3 e (0 : Fin 1) d) fun ax => ?_
  match ax with
  | ⟨0, _⟩ =>
    show e.val = if n = 1 then 0 else e.val
    split
    · have := e.isLt; omega
    · rfl
  | ⟨1, _⟩ => rfl
  | ⟨2, _⟩ =>
    show d.val = if b = 1 then 0 else d.val
    split
    · have := d.isLt; omega
    · rfl

/-- The left factor of the outer product: `w[:, :, None]` spread over the last axis reads `w (e, c)`. -/
theorem outer_left_apply {n a b : ℕ} (w : (⟨2, ![n, a]⟩ : Shape).Idx → α)
    (h1 : (⟨2, ![n, a]⟩ : Shape).ShapeCasts ⟨3, ![n, a, 1]⟩) (h2 : (⟨3, ![n, a, 1]⟩ : Shape).Broadcasts ⟨3, ![n, a, b]⟩)
    (e : Fin n) (c : Fin a) (d : Fin b) :
    broadcastTo ⟨3, ![n, a, b]⟩ (shapeCast ⟨3, ![n, a, 1]⟩ w h1) h2 (ix3 e c d) = w (ix2 e c) := by
  rw [broadcastTo_na1_nab_apply, shapeCast_na_na1_apply]

/-- The right factor of the outer product: `u[:, None, :]` spread over the middle axis reads `u (e, d)`. -/
theorem outer_right_apply {n a b : ℕ} (u : (⟨2, ![n, b]⟩ : Shape).Idx → α)
    (h1 : (⟨2, ![n, b]⟩ : Shape).ShapeCasts ⟨3, ![n, 1, b]⟩) (h2 : (⟨3, ![n, 1, b]⟩ : Shape).Broadcasts ⟨3, ![n, a, b]⟩)
    (e : Fin n) (c : Fin a) (d : Fin b) :
    broadcastTo ⟨3, ![n, a, b]⟩ (shapeCast ⟨3, ![n, 1, b]⟩ u h1) h2 (ix3 e c d) = u (ix2 e d) := by
  rw [broadcastTo_n1b_nab_apply, shapeCast_nb_n1b_apply]

end Cert.LibOuter

end
-- ==== Proof.KernelPayload.lean ====
/-
  What the kernel body stores, read at one element.

  The body loads a block of 8000 rows of summed endpoint features `x0`, the matching 8000 unit vectors `x1` and the
  two weight matrices `A`, `B`. Its stored value at `(r, c, d)` is the weight of channel `c` for row `r` times
  the unit vector of row `r` at `d`: the first matrix product into a zero accumulator is the sum
  `∑ j, x0 (r, j) · A (j, k)`, the gate follows with its exponent spelt `0 - x`, the second product into a zero
  accumulator is the sum over `k` against `B (k, c)`, and the two keepdims broadcasts pick `(r, c)` of the weights
  and `(r, d)` of the unit vectors. A change of float format is the identity on the extended reals.
-/
import proofs.«427524_j87179246174229_1_alg».proof.Proof.Gen.KernelIdeal.Skeleton
import proofs.«427524_j87179246174229_1_alg».proof.Proof.LibDot
import proofs.«427524_j87179246174229_1_alg».proof.Proof.LibOuter
import proofs.«427524_j87179246174229_1_alg».proof.Proof.EdgeMessage
import Idealize.ShloMosaic.Lib.Pipeline.Value
import Idealize.ShloMosaic.Lib.ValueIdx

noncomputable section

open scoped BigOperators

namespace Cert.KernelIdeal.Payload

open Idealize.ShloMosaic Idealize.ShloMosaic.ValueIdx Cert.KernelIdeal Cert.KernelIdeal.Gen Cert.EdgeMessage

/-- The gated message at one entry: the body's chain `M · (1 / (1 + exp (0 - M)))`, then the change of format. -/
theorem gate_stage (M : FVec Ideal S8000x128 .f32) (h : FTy.bits .bf16 < FTy.bits .f32) (i : S8000x128.Idx) :
    (truncf .bf16 (mulf M (divf (broadcast S8000x128 (Scalar.ofBits (F := Ideal) .f32 0x3F800000#32))
      (addf (broadcast S8000x128 (Scalar.ofBits (F := Ideal) .f32 0x3F800000#32))
        (exp (subf (broadcast S8000x128 (Scalar.ofBits (F := Ideal) .f32 0x00000000#32)) M))))) h : FVec Ideal S8000x128 .bf16) i
      = gate (M i) :=
  gate_of_zero_sub (M i)

/-- The body's stored value at `(r, c, d)`. -/
theorem pay_apply (x0 : Vec Ideal S8000x128 .f32) (A : Vec Ideal S128x128 .f32) (B : Vec Ideal S128x13 .f32)
    (x1 : Vec Ideal S8000x3 .f32) (r : Fin 8000) (c : Fin 13) (d : Fin 3) :
    k0_pay1 (F := Ideal) x0 A B x1 (ix3 r c d) = chanWeight (fun j => x0 (ix2 r j)) A B c * x1 (ix2 r d) := by
  unfold k0_pay1
  rw [mulf_apply, LibOuter.outer_left_apply, LibOuter.outer_right_apply, shapeCast_self, shapeCast_self,
    LibDot.matmul_zero_apply dot_S8000x128_S128x13_S8000x13_1_0_0_1_n_n rfl rfl rfl rfl rfl rfl]
  unfold chanWeight
  refine congrArg (· * x1 (ix2 r d)) (Finset.sum_congr rfl fun k _ => ?_)
  rw [gate_stage, truncf_apply,
    LibDot.matmul_zero_apply dot_S8000x128_S128x128_S8000x128_1_0_0_1_n_n rfl rfl rfl rfl rfl rfl]
  refine congrArg (fun z => gate z * B (ix2 k c)) (Finset.sum_congr rfl fun j _ => ?_)
  rw [truncf_apply, truncf_apply]

end Cert.KernelIdeal.Payload

end
-- ==== Proof.KernelArray.lean ====
/-
  The array the kernel region leaves: one function of the arrays it reads.

  The region walks 100 points; point `t` reads rows `8000·t … 8000·t + 7999` of the summed endpoint features and
  of the unit vectors, the two weight matrices whole, and writes back rows `8000·t … 8000·t + 7999` of the result.
  A row of the result depends only on the same row of the two edge arrays, so what point `t` writes back is block
  `t` of the edge contributions of all 800000 edges; the 100 blocks tile the result, so after the region the whole
  array is that function.
-/
import proofs.«427524_j87179246174229_1_alg».proof.Proof.Gen.KernelIdeal.Frame
import proofs.«427524_j87179246174229_1_alg».proof.Proof.KernelPayload
import Idealize.ShloMosaic.Lib.Pipeline.Value
import Idealize.ShloMosaic.Lib.ValueIdx

set_option maxRecDepth 16384

noncomputable section

open scoped BigOperators

namespace Cert.KernelIdeal.Region

open Idealize.ShloMosaic Idealize.ShloMosaic.ValueIdx Idealize.ShloMosaic.TcCoe Idealize.SL.Sem
open Cert.KernelIdeal Cert.KernelIdeal.Gen Cert.EdgeMessage
open Idealize.ShloMosaic.Pipeline (Dat Cfg Window)

variable (m : (ℓ : Loc nD τ sig) → Buf (Elt Ideal) ℓ)

/-- The summed endpoint features of all edges, as the region finds them. -/
abbrev ssum (c : Dev nD) : Vec Ideal S800000x128 .f32 := V m c main_v51
/-- The unit vectors of all edges, as the region finds them. -/
abbrev unit (c : Dev nD) : Vec Ideal S800000x3 .f32 := V m c main_v36
/-- The message weights. -/
abbrev wmsg (c : Dev nD) : Vec Ideal S128x128 .f32 := V m c main_arg2
/-- The channel weights. -/
abbrev wvec (c : Dev nD) : Vec Ideal S128x13 .f32 := V m c main_arg3

/-- The edge contributions of all edges, from the arrays the region reads. -/
abbrev edges (c : Dev nD) : Vec Ideal S800000x13x3 .f32 := contrib (ssum m c) (unit m c) (wmsg m c) (wvec m c)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the grid: the two edge windows and the result window sit at block `t` of their row
    axis and at block 0 of the others; the weight windows sit at block 0. -/
theorem index_maps : ∀ t : Fin cfg0.N, win0_4.index t (0 : Fin 3) = t.val
    ∧ win0_4.index t (1 : Fin 3) = 0 ∧ win0_4.index t (2 : Fin 3) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Where entry `y` of point `t`'s block of the summed endpoint features sits in the array: row `8000·t + y₀`. -/
theorem place_ssum (t : Fin cfg0.N) (y : S8000x128.Idx) (i : S800000x128.Idx)
    (h0 : (i 0).val = t.val * 8000 + (y 0).val) (h1 : (i 1).val = (y 1).val) :
    ((cfg0.win 0).blk t).view.emb y = i := by
  obtain ⟨e40, e41, e42, e00, e01, e10, e11, e20, e21, e30, e31⟩ := index_maps t
  funext a
  apply Fin.ext
  match a with
  | ⟨0, _⟩ => show win0_0.index t (0 : Fin 2) * 8000 + 1 * (y 0).val = (i 0).val; omega
  | ⟨1, _⟩ => show win0_0.index t (1 : Fin 2) * 128 + 1 * (y 1).val = (i 1).val; omega

/-- Where entry `y` of point `t`'s block of the unit vectors sits in the array: row `8000·t + y₀`. -/
theorem place_unit (t : Fin cfg0.N) (y : S8000x3.Idx) (i : S800000x3.Idx)
    (h0 : (i 0).val = t.val * 8000 + (y 0).val) (h1 : (i 1).val = (y 1).val) :
    ((cfg0.win 1).blk t).view.emb y = i := by
  obtain ⟨e40, e41, e42, e00, e01, e10, e11, e20, e21, e30, e31⟩ := index_maps t
  funext a
  apply Fin.ext
  match a with
  | ⟨0, _⟩ => show win0_1.index t (0 : Fin 2) * 8000 + 1 * (y 0).val = (i 0).val; omega
  | ⟨1, _⟩ => show win0_1.index t (1 : Fin 2) * 3 + 1 * (y 1).val = (i 1).val; omega

/-- The block of the message weights is the whole matrix: an entry sits where it is. -/
theorem place_wmsg (t : Fin cfg0.N) (z : S128x128.Idx) : ((cfg0.win 2).blk t).view.emb z = z := by
  obtain ⟨e40, e41, e42, e00, e01, e10, e11, e20, e21, e30, e31⟩ := index_maps t
  funext a
  apply Fin.ext
  match a with
  | ⟨0, _⟩ => show win0_2.index t (0 : Fin 2) * 128 + 1 * (z 0).val = (z 0).val; omega
  | ⟨1, _⟩ => show win0_2.index t (1 : Fin 2) * 128 + 1 * (z 1).val = (z 1).val; omega

/-- The block of the channel weights is the whole matrix: an entry sits where it is. -/
theorem place_wvec (t : Fin cfg0.N) (z : S128x13.Idx) : ((cfg0.win 3).blk t).view.emb z = z := by
  obtain ⟨e40, e41, e42, e00, e01, e10, e11, e20, e21, e30, e31⟩ := index_maps t
  funext a
  apply Fin.ext
  match a with
  | ⟨0, _⟩ => show win0_3.index t (0 : Fin 2) * 128 + 1 * (z 0).val = (z 0).val; omega
  | ⟨1, _⟩ => show win0_3.index t (1 : Fin 2) * 13 + 1 * (z 1).val = (z 1).val; omega

/-- Row `r` of the block of summed endpoint features at point `t` is row `8000·t + r` of the array. -/
theorem read_ssum (c : Dev nD) (t : Fin cfg0.N) (r : Fin 8000) (j : Fin 128) (e : Fin 800000)
    (he : e.val = t.val * 8000 + r.val) : iblk m c 0 t (ix2 r j) = V m c main_v51 (ix2 e j) := by
  unfold iblk
  rw [View.read_apply, place_ssum t (ix2 r j) (ix2 e j) he rfl]
  exact cast_eq _ _

/-- Row `r` of the block of unit vectors at point `t` is row `8000·t + r` of the array. -/
theorem read_unit (c : Dev nD) (t : Fin cfg0.N) (r : Fin 8000) (d : Fin 3) (e : Fin 800000)
    (he : e.val = t.val * 8000 + r.val) : iblk m c 1 t (ix2 r d) = V m c main_v36 (ix2 e d) := by
  unfold iblk
  rw [View.read_apply, place_unit t (ix2 r d) (ix2 e d) he rfl]
  exact cast_eq _ _

/-- The block of the message weights at any point is the whole matrix. -/
theorem read_wmsg (c : Dev nD) (t : Fin cfg0.N) : iblk m c 2 t = V m c main_arg2 := by
  funext z
  unfold iblk
  rw [View.read_apply, place_wmsg t z]
  exact cast_eq _ _

/-- The block of the channel weights at any point is the whole matrix. -/
theorem read_wvec (c : Dev nD) (t : Fin cfg0.N) : iblk m c 3 t = V m c main_arg3 := by
  funext z
  unfold iblk
  rw [View.read_apply, place_wvec t z]
  exact cast_eq _ _

/-- What the body leaves at point `t`, entry by entry, is the edge contributions of all edges at the entry's place in
    the result array (row `8000·t + y₀`, same channel and coordinate): the body's value is the channel weight of the
    block's row times the block's unit vector, and the block's rows are those rows of the arrays. -/
theorem body_value (c : Dev nD) (t : Fin cfg0.N) (y : S8000x13x3.Idx) (i : S800000x13x3.Idx)
    (hi0 : (i 0).val = t.val * 8000 + (y 0).val) (hi1 : (i 1).val = (y 1).val) (hi2 : (i 2).val = (y 2).val) :
    k0_pay1 (F := Ideal) (iblk m c 0 t) (iblk m c 2 t) (iblk m c 3 t) (iblk m c 1 t) y = edges m c i := by
  obtain ⟨r, cc, d, rfl⟩ : ∃ (r : Fin 8000) (cc : Fin 13) (d : Fin 3), y = ix3 r cc d := ⟨y 0, y 1, y 2, eq_ix3 y⟩
  obtain ⟨e, c', d', rfl⟩ : ∃ (e : Fin 800000) (c' : Fin 13) (d' : Fin 3), i = ix3 e c' d' := ⟨i 0, i 1, i 2, eq_ix3 i⟩
  have hc : c' = cc := Fin.ext hi1
  have hd : d' = d := Fin.ext hi2
  subst hc hd
  have he : e.val = t.val * 8000 + r.val := hi0
  refine (Payload.pay_apply (iblk m c 0 t) (iblk m c 2 t) (iblk m c 3 t) (iblk m c 1 t) r c' d').trans ?_
  refine Eq.trans ?_ (contrib_apply (ssum m c) (unit m c) (wmsg m c) (wvec m c) e c' d').symm
  have hrow : (fun j => iblk m c 0 t (ix2 r j)) = fun j => V m c main_v51 (ix2 e j) :=
    funext fun j => read_ssum m c t r j e he
  rw [read_wmsg m c t, read_wvec m c t, read_unit m c t r d' e he, hrow]

/-- What point `t` writes back is block `t` of the edge contributions of all edges. -/
theorem flushed_eq (c : Dev nD) (t : Fin cfg0.N) :
    (dats m 0 c).flushed 4 t = ((cfg0.win 4).blk t).view.read (Elt Ideal) (edges m c) := by
  show (cfg0.win 4).cut (grid0.coords t) ((dats m 0 c).after 4 t) = _
  rw [after0_4]
  unfold out0_4
  rw [View.canon_unit_zero zero3]
  simp only [View.ld_unit_zero (S := S8000x128) zero2, View.ld_unit_zero (S := S128x128) zero2,
    View.ld_unit_zero (S := S128x13) zero2, View.ld_unit_zero (S := S8000x3) zero2]
  obtain ⟨e40, e41, e42, e00, e01, e10, e11, e20, e21, e30, e31⟩ := index_maps t
  funext y
  rw [View.read_apply]
  refine Eq.trans ?_ (cast_eq _ _).symm
  refine body_value m c t ((cfg0.win 4).xinj (grid0.coords t) y) (((cfg0.win 4).blk t).view.emb y) ?_ ?_ ?_
  · show win0_4.index t (0 : Fin 3) * 8000 + 1 * (y 0).val = t.val * 8000 + (y 0).val; omega
  · show win0_4.index t (1 : Fin 3) * 13 + 1 * (y 1).val = (y 1).val; omega
  · show win0_4.index t (2 : Fin 3) * 3 + 1 * (y 2).val = (y 2).val; omega

/-- An index of the result is in point `t`'s block iff each coordinate is in the block's range on its axis. -/
theorem mem_block (t : Fin cfg0.N) (i : S800000x13x3.Idx) :
    i ∈ ((cfg0.win 4).blk t).view.set ↔ ∀ a : Fin 3, win0_4.index t a * S8000x13x3.size a ≤ (i a).val
      ∧ (i a).val < win0_4.index t a * S8000x13x3.size a + S8000x13x3.size a := by
  show i ∈ ((View.whole main_v52).slice (win0_4.rect t)).set ↔ _
  rw [View.set_slice_whole, Rect.mem_set_unit]
  exact Iff.rfl

/-- Every index of the result lies in the block of the point that owns its row. -/
theorem blocks_cover (i : S800000x13x3.Idx) :
    ∃ t : Fin cfg0.N, (cfg0.win 4).flush t = true ∧ i ∈ ((cfg0.win 4).blk t).view.set := by
  have hi0 : (i 0).val < 800000 := (i 0).isLt
  have hi1 : (i 1).val < 13 := (i 1).isLt
  have hi2 : (i 2).val < 3 := (i 2).isLt
  have hN : cfg0.N = 100 := N_0
  let t : Fin cfg0.N := ⟨(i 0).val / 8000, by rw [hN]; omega⟩
  obtain ⟨e40, e41, e42, -⟩ := index_maps t
  have ht : t.val = (i 0).val / 8000 := rfl
  refine ⟨t, flush0_4 t, ?_⟩
  rw [mem_block]
  intro a
  match a with
  | ⟨0, _⟩ => show win0_4.index t (0 : Fin 3) * 8000 ≤ (i 0).val ∧ (i 0).val < win0_4.index t (0 : Fin 3) * 8000 + 8000; omega
  | ⟨1, _⟩ => show win0_4.index t (1 : Fin 3) * 13 ≤ (i 1).val ∧ (i 1).val < win0_4.index t (1 : Fin 3) * 13 + 13; omega
  | ⟨2, _⟩ => show win0_4.index t (2 : Fin 3) * 3 ≤ (i 2).val ∧ (i 2).val < win0_4.index t (2 : Fin 3) * 3 + 3; omega

/-- After the region the result array holds the edge contributions of all edges. -/
theorem region_result (c : Dev nD) : (dats m 0 c).arrAt 4 cfg0.N = edges m c :=
  (dats m 0 c).arrAt_eq_of_cover 4 (edges m c) (fun t _ => flushed_eq m c t) (blocks_cover)

end Cert.KernelIdeal.Region

end
-- ==== Proof.LibPairConcat.lean ====
/-
  A two-piece concatenation as a function of its two pieces.

  `concatenate` takes its pieces as a list of pairs (a shape, an array of that shape), so a piece is a component of a
  dependent pair inside a list, and a rewriting pass over a term does not reach it there. `concat2` is the same
  concatenation of two pieces with the pieces as plain arguments; the two are equal by definition (`concat2_eq`).
  Reading the contents a host chain leaves in a buffer is a rewriting pass over the chain's result lemmas; with
  `concat2_eq` among them the pass also reads the contents of the two pieces (`after_results_pair`).
-/
import Idealize.ShloMosaic.Lib.StableHlo.Run

namespace Cert.LibPairConcat

open Idealize.ShloMosaic

/-- A two-piece concatenation with its pieces as plain arguments. -/
def concat2 {α : Type} (t : Shape) (a : Fin t.rank) (S1 S2 : Shape) (x : S1.Idx → α) (y : S2.Idx → α)
    (h : Shape.Concatenates [S1, S2] t a) : t.Idx → α := concatenate t a [⟨S1, x⟩, ⟨S2, y⟩] h

theorem concat2_eq {α : Type} (t : Shape) (a : Fin t.rank) (S1 S2 : Shape) (x : S1.Idx → α) (y : S2.Idx → α)
    (h : Shape.Concatenates [S1, S2] t a) : concatenate t a [⟨S1, x⟩, ⟨S2, y⟩] h = concat2 t a S1 S2 x y h := rfl

end Cert.LibPairConcat

open Idealize.ShloMosaic.StableHlo in
/-- The library's one-pass reading of `after ops V r`, also reading the pieces of a two-piece concatenation. -/
macro "after_results_pair" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibPairConcat.concat2_eq]))
-- ==== Proof.KernelHost.lean ====
/-
  The kernel program's host operations around its region.

  Before the region the program computes, with the reference's own operations, the summed endpoint features of the
  edges, their unit vectors, and the source-bead array; after the region it applies the reference's decode to the
  array the region left. So each is the corresponding stage function of the argument arrays, for any float family.
-/
import proofs.«427524_j87179246174229_1_alg».proof.Proof.Gen.KernelIdeal.Frame
import proofs.«427524_j87179246174229_1_alg».proof.Proof.RefDecode
import proofs.«427524_j87179246174229_1_alg».proof.Proof.LibPairConcat
import Idealize.ShloMosaic.Lib.StableHlo.Run

set_option maxRecDepth 65536

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.ReadP (val_main_v14 val_main_v36 val_main_v51)
open Cert.ReferenceIdeal.Decode (decode)

variable {F : FTy → Type} [FloatOps F]
variable (m : (ℓ : Loc nD τ sig) → Buf (Elt F) ℓ)

/-- The bead positions, as launched. -/
abbrev pos (c : Dev nD) : (⟨S50000x3, .f32⟩ : BufTy).Contents (Elt F) := m ((c : Thread nD τ).loc main_arg0)
/-- The embedding table, as launched. -/
abbrev emb (c : Dev nD) : (⟨S100x128, .f32⟩ : BufTy).Contents (Elt F) := m ((c : Thread nD τ).loc main_arg1)
/-- The bead types, as launched. -/
abbrev types (c : Dev nD) : (⟨S50000, .i32⟩ : BufTy).Contents (Elt F) := m ((c : Thread nD τ).loc main_arg4)
/-- The edge list, as launched. -/
abbrev nbrs (c : Dev nD) : (⟨S800000x2, .i32⟩ : BufTy).Contents (Elt F) := m ((c : Thread nD τ).loc main_arg5)
/-- The atom-to-bead map, as launched. -/
abbrev atomBead (c : Dev nD) : (⟨S650000, .i32⟩ : BufTy).Contents (Elt F) := m ((c : Thread nD τ).loc main_arg6)
/-- The atoms whose offset is zeroed, as launched. -/
abbrev zeroed (c : Dev nD) : (⟨S50000, .i32⟩ : BufTy).Contents (Elt F) := m ((c : Thread nD τ).loc main_arg7)

/-- The source-bead array the region is entered with is the reference's stage of the edge list. -/
theorem src_eq (c : Dev nD) : V m c main_v14 = val_main_v14 (F := F) (nbrs m c) := by
  dsimp only [V, V0]
  simp only [hostOps0, hostOps0_1, hostOps0_2, List.flatten_cons, List.flatten_nil, List.append_nil, List.cons_append,
    List.nil_append]
  after_results_simp
  rfl

/-- The summed endpoint features the region is entered with are the reference's stage of the arguments. -/
theorem ssum_eq (c : Dev nD) : V m c main_v51 = val_main_v51 (F := F) (emb m c) (types m c) (nbrs m c) := by
  dsimp only [V, V0]
  simp only [hostOps0, hostOps0_1, hostOps0_2, List.flatten_cons, List.flatten_nil, List.append_nil, List.cons_append,
    List.nil_append]
  after_results_simp
  rfl

/-- The unit vectors the region is entered with are the reference's stage of the arguments. -/
theorem unit_eq (c : Dev nD) : V m c main_v36 = val_main_v36 (F := F) (pos m c) (nbrs m c) := by
  dsimp only [V, V0]
  simp only [hostOps0, hostOps0_1, hostOps0_2, List.flatten_cons, List.flatten_nil, List.append_nil, List.cons_append,
    List.nil_append]
  after_results_simp
  try simp only [TRef.ofBuf, TRef.toBuf, cast_eq]
  rfl

/-- The valuation the host tail starts from: the region's arrays at what the run left, every other buffer as the
    region found it. -/
abbrev afterRegion (c : Dev nD) : Valuation τ sig (Elt F) :=
  Pipeline.withArrays spec0 c (V0 m c) fun w => (dats m 0 c).arrAt w cfg0.N

theorem afterRegion_edges (c : Dev nD) :
    afterRegion m c (Proc.devRef .tc main_v52) = (dats m 0 c).arrAt 4 cfg0.N :=
  Pipeline.withArrays_arr spec0 winFacts0.arr_inj c _ _ 4

theorem afterRegion_src (c : Dev nD) : afterRegion m c (Proc.devRef .tc main_v14) = V m c main_v14 :=
  Pipeline.withArrays_of_ne spec0 c (V0 m c) _ main_v14 (by decide)

theorem afterRegion_pos (c : Dev nD) : afterRegion m c (Proc.devRef .tc main_arg0) = pos m c :=
  (Pipeline.withArrays_of_ne spec0 c (V0 m c) _ main_arg0 (by decide)).trans (V_main_arg0 m c)

theorem afterRegion_atomBead (c : Dev nD) : afterRegion m c (Proc.devRef .tc main_arg6) = atomBead m c :=
  (Pipeline.withArrays_of_ne spec0 c (V0 m c) _ main_arg6 (by decide)).trans (V_main_arg6 m c)

theorem afterRegion_zeroed (c : Dev nD) : afterRegion m c (Proc.devRef .tc main_arg7) = zeroed m c :=
  (Pipeline.withArrays_of_ne spec0 c (V0 m c) _ main_arg7 (by decide)).trans (V_main_arg7 m c)

/-- The host tail read from any valuation: its result is the reference's decode of what the valuation holds at the
    region's result array, given what it holds at the source-bead array and at the three arguments the tail reads. -/
theorem tail_read (W : Valuation τ sig (Elt F)) (E : (⟨S800000x13x3, .f32⟩ : BufTy).Contents (Elt F))
    (x0 : (⟨S50000x3, .f32⟩ : BufTy).Contents (Elt F)) (x5 : (⟨S800000x2, .i32⟩ : BufTy).Contents (Elt F))
    (x6 : (⟨S650000, .i32⟩ : BufTy).Contents (Elt F)) (x7 : (⟨S50000, .i32⟩ : BufTy).Contents (Elt F))
    (h52 : W (Proc.devRef .tc main_v52) = E) (h14 : W (Proc.devRef .tc main_v14) = val_main_v14 (F := F) x5)
    (h0 : W (Proc.devRef .tc main_arg0) = x0) (h6 : W (Proc.devRef .tc main_arg6) = x6)
    (h7 : W (Proc.devRef .tc main_arg7) = x7) :
    StableHlo.after hostOps1 W (Proc.devRef .tc main_v97) = decode (F := F) E x0 x5 x6 x7 := by
  simp only [hostOps1]
  after_results_pair
  rw [h52, h14, h0, h6, h7]
  rfl

/-- The program's result is the reference's decode of the array the region left. -/
theorem result_eq (c : Dev nD) :
    Pipeline.afterTail₀ cfgs (dats m) 0 (V0 m) [hostOps1] c main_v97
      = decode (F := F) ((dats m 0 c).arrAt 4 cfg0.N) (pos m c) (nbrs m c) (atomBead m c) (zeroed m c) := by
  unfold Pipeline.afterTail₀
  simp only [List.flatten_cons, List.flatten_nil, List.append_nil]
  exact tail_read (afterRegion m c) ((dats m 0 c).arrAt 4 cfg0.N) (pos m c) (nbrs m c) (atomBead m c) (zeroed m c)
    (afterRegion_edges m c) ((afterRegion_src m c).trans (src_eq m c)) (afterRegion_pos m c) (afterRegion_atomBead m c)
    (afterRegion_zeroed m c)

end Cert.KernelIdeal.Host

end
-- ==== Proof.lean ====
/-
  A message-passing step on a coarse-grained graph, and its decode to atoms: the kernel against its reference.

  Both programs embed the bead types, gather the endpoints of the 800000 edges, form each edge's unit vector
  `r / (|r| + ε)` and its summed endpoint features, and after the edge stage do the same decode: a segment sum of the
  edge contributions over the source beads, a gather of one `(bead, channel)` row per atom, the zeroing of the listed
  atoms, and the addition of the bead positions. Those host operations are the same text in both programs, so they are
  carried as functions and never opened: what goes into them is compared instead.

  The edge stage is where the programs differ. The kernel walks the edges in 100 blocks of 8000 rows; on each it
  multiplies the summed features by the message weights into a zero accumulator, gates the result with
  `x · (1 / (1 + exp (0 - x)))`, multiplies by the channel weights into a zero accumulator, and forms the outer product
  with the unit vectors by keepdims broadcasts. The reference does the two products on the host over all edges at once,
  spells the gate with `exp (-x)`, and forms the outer product by two broadcasts. On the extended reals a change of
  float format is the identity, a product into a zero accumulator is the plain sum over the contracted axis,
  `0 - x = -x` for every `x`, and a row of the result depends only on the same row of the inputs; so both edge stages
  are one function of the same arrays, entry by entry, and no finiteness of the inputs is used.

  The three frames: the kernel's two are its generated frame certificates; the reference's is its run with the result
  dropped. The idealization rewrote nothing, so `preserves` is trivial.
-/
import proofs.«427524_j87179246174229_1_alg».proof.Defs
import proofs.«427524_j87179246174229_1_alg».proof.Proof.Gen.Kernel
import proofs.«427524_j87179246174229_1_alg».proof.Proof.Gen.Kernel.Skeleton
import proofs.«427524_j87179246174229_1_alg».proof.Proof.Gen.Kernel.Launch
import proofs.«427524_j87179246174229_1_alg».proof.Proof.Gen.Kernel.Points
import proofs.«427524_j87179246174229_1_alg».proof.Proof.Gen.Kernel.Frame
import proofs.«427524_j87179246174229_1_alg».proof.Proof.Gen.KernelIdeal
import proofs.«427524_j87179246174229_1_alg».proof.Proof.Gen.KernelIdeal.Skeleton
import proofs.«427524_j87179246174229_1_alg».proof.Proof.Gen.KernelIdeal.Launch
import proofs.«427524_j87179246174229_1_alg».proof.Proof.Gen.KernelIdeal.Points
import proofs.«427524_j87179246174229_1_alg».proof.Proof.Gen.KernelIdeal.Frame
import proofs.«427524_j87179246174229_1_alg».proof.Proof.Gen.ReferenceIdeal
import proofs.«427524_j87179246174229_1_alg».proof.Proof.Gen.Pre_finite_inputs
import proofs.«427524_j87179246174229_1_alg».proof.Proof.RefRun
import proofs.«427524_j87179246174229_1_alg».proof.Proof.RefRead
import proofs.«427524_j87179246174229_1_alg».proof.Proof.RefDecode
import proofs.«427524_j87179246174229_1_alg».proof.Proof.KernelArray
import proofs.«427524_j87179246174229_1_alg».proof.Proof.KernelHost
import Idealize.ShloMosaic.Adequacy
import Idealize.ShloMosaic.Init

noncomputable section

namespace Cert.Proof

open Idealize.ShloMosaic Idealize.ShloMosaic.TcCoe Idealize.SL.Sem
open Cert.EdgeMessage (contrib)
open Cert.ReferenceIdeal.Decode (decode)
open Cert.ReferenceIdeal.ReadP (val_main_v36 val_main_v51 val_main_v104 val_main_v104_eq)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

section KernelRun

open Cert.KernelIdeal Cert.KernelIdeal.Gen Cert.KernelIdeal.Host

variable (m : (ℓ : Loc nD τ sig) → Buf (Elt Ideal) ℓ)

/-- The kernel program's result, as a function of its argument arrays: the decode of the edge contributions of the
    summed endpoint features and unit vectors the host operations before the region compute. -/
def kernelResult (c : Dev nD) : (⟨Cert.ReferenceIdeal.S650000x3, .f32⟩ : BufTy).Contents (Elt Ideal) :=
  decode (F := Ideal)
    (contrib (val_main_v51 (F := Ideal) (emb m c) (types m c) (nbrs m c)) (val_main_v36 (F := Ideal) (pos m c) (nbrs m c))
      (m ((c : Thread nD τ).loc main_arg2)) (m ((c : Thread nD τ).loc main_arg3)))
    (pos m c) (nbrs m c) (atomBead m c) (zeroed m c)

/-- What the host tail leaves in the result buffer is that function. -/
theorem tail_eq_kernelResult (c : Dev nD) :
    Pipeline.afterTail₀ cfgs (dats m) 0 (V0 m) [hostOps1] c main_v97 = kernelResult m c := by
  rw [Host.result_eq, Region.region_result]
  unfold kernelResult
  rw [← ssum_eq m c, ← unit_eq m c, ← V_main_arg2 m c, ← V_main_arg3 m c]

/-- The kernel program's run at the ideal instance, its result named: the generated frame run, its post read at the
    result buffer and, as the generated frame does, at the argument buffers. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v97) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v97 (Pipeline.mem_restRefs_of main_v97 (by decide) (by decide))).trans (tail_eq_kernelResult m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end KernelRun

/-- The idealization rewrote no operation. -/
theorem preserves : Cert.preserves_Kernel_KernelIdeal := trivial

/-- From memories that agree on the arguments both programs end with the same result: the kernel's is the decode of
    the edge contributions (its run above), the reference's stage composition is the same decode of the same
    contributions, and the arguments are rewritten by their agreement. -/
theorem algebraic : Cert.algebraic_KernelIdeal_ReferenceIdeal := by
  intro m ρ m' ρ' _ hagree
  refine ⟨fun c => kernelResult m c, kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [val_main_v104_eq, Cert.ReferenceIdeal.Decode.result_eq_edges, h0, h1, h2, h3, h4, h5, h6, h7]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
